-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S67108864 : Shape := ⟨1, ![67108864]⟩
abbrev S_ : Shape := ⟨0, ![]⟩

class Facts : Prop where
  bcast_S_S67108864 : S_.BroadcastsInDim S67108864 (![] : Fin 0 → Fin S67108864.rank)
  reducesTo_S67108864_S_d0 : S67108864.ReducesTo [0] S_
  h_S_ : 0 < S_.numel

variable [Facts]

def fn {F : FTy → Type} [FloatOps F] (main_arg0 : FVec F S67108864 .f32) (main_arg1 : IVec S67108864 32) : IVec S_ 1 :=
  let main_v0 : FVec F S67108864 .f32 := Host.absf main_arg0
  let main_cst : FVec F S_ .f32 := constant S_ .f32 0x7F800000#32
  let main_v1 : FVec F S67108864 .f32 := broadcastInDim S67108864 ![] bcast_S_S67108864 main_cst
  let main_v2 : IVec S67108864 1 := cmpf .olt main_v0 main_v1
  let main_c : IVec S_ 1 := constantI S_ 1 1#1
  let main_v3 : IVec S_ 1 := (fun x v => Host.reduce IntOp.andi x v reducesTo_S67108864_S_d0 h_S_) main_v2 main_c
  main_v3
-- ==== Kernel.lean ====
abbrev S67108864 : Shape := ⟨1, ![67108864]⟩
abbrev S524288x128 : Shape := ⟨2, ![524288, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S67108864, .f32⟩
  | .hbm, ⟨1, _⟩ => ⟨S67108864, .i32⟩
  | .hbm, ⟨2, _⟩ => ⟨S524288x128, .f32⟩
  | .hbm, ⟨3, _⟩ => ⟨S524288x128, .i32⟩
  | .hbm, ⟨4, _⟩ => ⟨S1x1, .f32⟩
  | .hbm, ⟨5, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S1x1, .f32⟩
  | .local _ .vmem, ⟨5, _⟩ => ⟨S1x1, .f32⟩
  | _, _ => ⟨S67108864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v65 : BitVec 1 := Scalar.cmpi .eq arg0 c63_i32
  let v66 : BitVec 32 := Scalar.extui v65
  let c0_i32_22 : BitVec 32 := 0#32
  let v67 : BitVec 1 := Scalar.cmpi .ne v66 c0_i32_22
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S67108864_S524288x128 : S67108864.ShapeCasts S524288x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .i32 = 32 ∨ (Rect.block (s := S524288x128) S8192x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S67108864 : Shape := ⟨1, ![67108864]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S67108864, .f32⟩
  | .hbm, ⟨1, _⟩ => ⟨S67108864, .i32⟩
  | .hbm, ⟨2, _⟩ => ⟨S67108864, .f32⟩
  | .hbm, ⟨3, _⟩ => ⟨S_, .f32⟩
  | .hbm, ⟨4, _⟩ => ⟨S67108864, .f32⟩
  | .hbm, ⟨5, _⟩ => ⟨S67108864, .f32⟩
  | .hbm, ⟨6, _⟩ => ⟨S67108864, .f32⟩
  | .hbm, ⟨7, _⟩ => ⟨S67108864, .f32⟩
  | .hbm, ⟨8, _⟩ => ⟨S67108864, .i1⟩
  | .hbm, ⟨9, _⟩ => ⟨S67108864, .f32⟩
  | .hbm, ⟨10, _⟩ => ⟨S67108864, .f32⟩
  | .hbm, ⟨11, _⟩ => ⟨S67108864, .f32⟩
  | .hbm, ⟨12, _⟩ => ⟨S67108864, .f32⟩
  | .hbm, ⟨13, _⟩ => ⟨S67108864, .f32⟩
  | .hbm, ⟨14, _⟩ => ⟨S67108864, .f32⟩
  | .hbm, ⟨15, _⟩ => ⟨S67108864, .f32⟩
  | .hbm, ⟨16, _⟩ => ⟨S67108864, .f32⟩
  | .hbm, ⟨17, _⟩ => ⟨S_, .f32⟩
  | .hbm, ⟨18, _⟩ => ⟨S67108864, .f32⟩
  | .hbm, ⟨19, _⟩ => ⟨S67108864, .i1⟩
  | .hbm, ⟨20, _⟩ => ⟨S_, .f32⟩
  | .hbm, ⟨21, _⟩ => ⟨S_, .f32⟩
  | .hbm, ⟨22, _⟩ => ⟨S67108864, .f32⟩
  | .hbm, ⟨23, _⟩ => ⟨S67108864, .f32⟩
  | .hbm, ⟨24, _⟩ => ⟨S67108864, .f32⟩
  | .hbm, ⟨25, _⟩ => ⟨S67108864, .f32⟩
  | .hbm, ⟨26, _⟩ => ⟨S67108864, .f32⟩
  | .hbm, ⟨27, _⟩ => ⟨S_, .f32⟩
  | .hbm, ⟨28, _⟩ => ⟨S67108864, .f32⟩
  | .hbm, ⟨29, _⟩ => ⟨S67108864, .f32⟩
  | .hbm, ⟨30, _⟩ => ⟨S67108864, .f32⟩
  | .hbm, ⟨31, _⟩ => ⟨S67108864, .f32⟩
  | .hbm, ⟨32, _⟩ => ⟨S67108864, .i1⟩
  | .hbm, ⟨33, _⟩ => ⟨S67108864, .f32⟩
  | .hbm, ⟨34, _⟩ => ⟨S67108864, .f32⟩
  | .hbm, ⟨35, _⟩ => ⟨S67108864, .f32⟩
  | .hbm, ⟨36, _⟩ => ⟨S67108864, .f32⟩
  | .hbm, ⟨37, _⟩ => ⟨S67108864, .f32⟩
  | .hbm, ⟨38, _⟩ => ⟨S67108864, .f32⟩
  | .hbm, ⟨39, _⟩ => ⟨S67108864, .f32⟩
  | .hbm, ⟨40, _⟩ => ⟨S67108864, .f32⟩
  | .hbm, ⟨41, _⟩ => ⟨S_, .f32⟩
  | .hbm, ⟨42, _⟩ => ⟨S67108864, .f32⟩
  | .hbm, ⟨43, _⟩ => ⟨S67108864, .i1⟩
  | .hbm, ⟨44, _⟩ => ⟨S_, .f32⟩
  | .hbm, ⟨45, _⟩ => ⟨S_, .f32⟩
  | .hbm, ⟨46, _⟩ => ⟨S67108864, .f32⟩
  | .hbm, ⟨47, _⟩ => ⟨S67108864, .f32⟩
  | .hbm, ⟨48, _⟩ => ⟨S67108864, .f32⟩
  | .hbm, ⟨49, _⟩ => ⟨S67108864, .f32⟩
  | .hbm, ⟨50, _⟩ => ⟨S67108864, .f32⟩
  | .hbm, ⟨51, _⟩ => ⟨S_, .i32⟩
  | .hbm, ⟨52, _⟩ => ⟨S67108864, .i32⟩
  | .hbm, ⟨53, _⟩ => ⟨S67108864, .i1⟩
  | .hbm, ⟨54, _⟩ => ⟨S_, .i32⟩
  | .hbm, ⟨55, _⟩ => ⟨S67108864, .i32⟩
  | .hbm, ⟨56, _⟩ => ⟨S67108864, .i1⟩
  | .hbm, ⟨57, _⟩ => ⟨S_, .f32⟩
  | .hbm, ⟨58, _⟩ => ⟨S_, .f32⟩
  | .hbm, ⟨59, _⟩ => ⟨S67108864, .f32⟩
  | .hbm, ⟨60, _⟩ => ⟨S67108864, .f32⟩
  | .hbm, ⟨61, _⟩ => ⟨S67108864, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S67108864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_call2_cst : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_v7 : Ref sig .tc := ⟨.hbm, 40, rfl⟩
abbrev main_cst_2 : Ref sig .tc := ⟨.hbm, 41, rfl⟩
abbrev main_v8 : Ref sig .tc := ⟨.hbm, 42, rfl⟩
abbrev main_v9 : Ref sig .tc := ⟨.hbm, 43, rfl⟩
abbrev main_cst_3 : Ref sig .tc := ⟨.hbm, 44, rfl⟩
abbrev main_cst_4 : Ref sig .tc := ⟨.hbm, 45, rfl⟩
abbrev main_call3_v0 : Ref sig .tc := ⟨.hbm, 46, rfl⟩
abbrev main_call3_v1 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_c : Ref sig .tc := ⟨.hbm, 51, rfl⟩
abbrev main_v13 : Ref sig .tc := ⟨.hbm, 52, rfl⟩
abbrev main_v14 : Ref sig .tc := ⟨.hbm, 53, rfl⟩
abbrev main_c_5 : Ref sig .tc := ⟨.hbm, 54, rfl⟩
abbrev main_v15 : Ref sig .tc := ⟨.hbm, 55, rfl⟩
abbrev main_v16 : Ref sig .tc := ⟨.hbm, 56, rfl⟩
abbrev main_cst_6 : Ref sig .tc := ⟨.hbm, 57, rfl⟩
abbrev main_call4_v0 : Ref sig .tc := ⟨.hbm, 58, rfl⟩
abbrev main_call4_v1 : Ref sig .tc := ⟨.hbm, 59, rfl⟩
abbrev main_v17 : Ref sig .tc := ⟨.hbm, 60, rfl⟩
abbrev main_v18 : Ref sig .tc := ⟨.hbm, 61, rfl⟩
abbrev main_cst_7 : Ref sig .tc := ⟨.hbm, 62, rfl⟩
abbrev main_v19 : Ref sig .tc := ⟨.hbm, 63, rfl⟩
abbrev main_cst_8 : Ref sig .tc := ⟨.hbm, 64, rfl⟩
abbrev main_v20 : Ref sig .tc := ⟨.hbm, 65, rfl⟩

abbrev nD : Nat := 1
abbrev τ : Topo := Topo.v7x

variable {F : FTy → Type} [FloatOps F]

class Facts₀ : Prop where
  bcast_S_S67108864 : S_.BroadcastsInDim S67108864 (![] : Fin 0 → Fin S67108864.rank)
  reducesTo_S67108864_S_d0 : S67108864.ReducesTo [0] S_
  h_S_ : 0 < S_.numel

variable [Facts₀]

class Facts : Prop extends Facts₀ where

variable [Facts]
-- ==== Proof.Pieces.lean ====
/-
  What each control case of the kernel body leaves behind, as values.

  The body keeps a running total in a 1×1 scratch cell. Write `step x t a` for "the cell's old contents `a` plus the
  total loss of the block `(x, t)`" (the body's one store into the cell, as a function of what it loaded). Then
    • at the first grid point the cell is first reset to zero and the store reads that zero back: `step x t zero`;
    • at every later point the store reads what the point before left: `step x t a`;
    • at the last point the output cell additionally receives the updated cell divided by the element count.
  Everything here holds for any float instance: only loads, stores and the order of the body's operations are used.
-/
import proofs.«167686_j79465484910812_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Bce.Kernel

open Cert.KernelIdeal Cert.KernelIdeal.Gen

variable {F : FTy → Type} [FloatOps F]

theorem hz : (![0, 0] : Fin 2 → Nat) = fun _ => 0 := funext fun a => by fin_cases a <;> rfl

/-- The scratch cell after the body's accumulating store: its contents `a` before, plus the block's total loss. -/
def step (x : Vec F S8192x128 .f32) (t : Vec F S8192x128 .i32) (a : Vec F S1x1 .f32) : Vec F S1x1 .f32 :=
  k0_pay1 (k0_pay4 x) (k0_pay5 t) (k0_pay6 x) (k0_pay7 x) (Scalar.ofBits .f32 0x00000000#32) a

/-- The zero the first grid point resets the scratch cell to. -/
abbrev zero : Vec F S1x1 .f32 := k0_pay3

/-- What the last grid point stores into the output cell: the scratch cell divided by the element count. -/
abbrev mean (a : Vec F S1x1 .f32) : Vec F S1x1 .f32 := k0_pay2 a

/-- A middle grid point leaves the scratch cell at one step from what it found. -/
theorem scratch_B (c : Dev nD) (i : grid0.Coords) (arg1 : Memref sig .tc .vmem S8192x128 .f32) (harg1 : arg1.IsWhole)
    (arg2 : Memref sig .tc .vmem S8192x128 .i32) (harg2 : arg2.IsWhole) (arg3 : Memref sig .tc .vmem S1x1 .f32) (harg3 : arg3.IsWhole)
    (arg4 : Memref sig .tc .vmem S1x1 .f32) (harg4 : arg4.IsWhole) (hc0 : ¬cond0_0 i) (hc1 : ¬cond0_1 i)
    (x0 : Vec F S8192x128 .f32) (x1 : Vec F S8192x128 .i32) (xs0 : Vec F S1x1 .f32) :
    sout0_B_0 c i arg1 harg1 arg2 harg2 arg3 harg3 arg4 harg4 hc0 hc1 x0 x1 xs0 = step x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz]
  simp only [View.readAt_eq_ld, harg1.read_unread, harg2.read_unread, harg4.read_unread,
    View.ld_unit_zero (S := S8192x128) hz, View.ld_unit_zero (S := S1x1) hz]
  rfl

/-- The last grid point leaves the scratch cell at one step from what it found, -/
theorem scratch_C (c : Dev nD) (i : grid0.Coords) (arg1 : Memref sig .tc .vmem S8192x128 .f32) (harg1 : arg1.IsWhole)
    (arg2 : Memref sig .tc .vmem S8192x128 .i32) (harg2 : arg2.IsWhole) (arg3 : Memref sig .tc .vmem S1x1 .f32) (harg3 : arg3.IsWhole)
    (arg4 : Memref sig .tc .vmem S1x1 .f32) (harg4 : arg4.IsWhole) (hc0 : ¬cond0_0 i) (hc1 : cond0_1 i)
    (x0 : Vec F S8192x128 .f32) (x1 : Vec F S8192x128 .i32) (xs0 : Vec F S1x1 .f32) :
    sout0_C_0 c i arg1 harg1 arg2 harg2 arg3 harg3 arg4 harg4 hc0 hc1 x0 x1 xs0 = step x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread,
    View.ld_unit_zero (S := S8192x128) hz, View.ld_unit_zero (S := S1x1) hz]
  rfl

/-- and the output cell at that step's mean: the store into the output reads the updated scratch cell back. -/
theorem output_C (c : Dev nD) (i : grid0.Coords) (arg1 : Memref sig .tc .vmem S8192x128 .f32) (harg1 : arg1.IsWhole)
    (arg2 : Memref sig .tc .vmem S8192x128 .i32) (harg2 : arg2.IsWhole) (arg3 : Memref sig .tc .vmem S1x1 .f32) (harg3 : arg3.IsWhole)
    (arg4 : Memref sig .tc .vmem S1x1 .f32) (harg4 : arg4.IsWhole) (hc0 : ¬cond0_0 i) (hc1 : cond0_1 i)
    (x0 : Vec F S8192x128 .f32) (x1 : Vec F S8192x128 .i32) (xs0 : Vec F S1x1 .f32) :
    out0_C_2 c i arg1 harg1 arg2 harg2 arg3 harg3 arg4 harg4 hc0 hc1 x0 x1 xs0 = mean (step x0 x1 xs0) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz]
  simp only [View.readCov_unit_zero (S := S1x1) _ hz, View.readAt_eq_ld, harg1.read_unread, harg2.read_unread,
    harg4.read_unread, View.ld_unit_zero (S := S8192x128) hz, View.ld_unit_zero (S := S1x1) hz]
  rfl

/-- The first grid point resets the scratch cell and leaves it at one step from zero: of its two stores the later covers
    the cell, and its load of the cell reads the reset back. -/
theorem scratch_A (c : Dev nD) (i : grid0.Coords) (arg1 : Memref sig .tc .vmem S8192x128 .f32) (harg1 : arg1.IsWhole)
    (arg2 : Memref sig .tc .vmem S8192x128 .i32) (harg2 : arg2.IsWhole) (arg3 : Memref sig .tc .vmem S1x1 .f32) (harg3 : arg3.IsWhole)
    (arg4 : Memref sig .tc .vmem S1x1 .f32) (harg4 : arg4.IsWhole) (hc0 : cond0_0 i) (hc1 : ¬cond0_1 i)
    (x0 : Vec F S8192x128 .f32) (x1 : Vec F S8192x128 .i32) :
    sout0_A_0 c i arg1 harg1 arg2 harg2 arg3 harg3 arg4 harg4 hc0 hc1 x0 x1 = step x0 x1 zero := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, View.ld_unit_zero (S := S8192x128) hz]
  rfl

end Cert.Bce.Kernel

end
-- ==== Proof.Running.lean ====
/-
  The running total across the grid.

  The grid has 64 points; point n handles block n of the logits and of the targets. The scratch cell after point n is
      cell 0 = step (block 0) zero,      cell (n+1) = step (block (n+1)) (cell n),
  because the first point resets the cell before its step and every later point finds what the point before left. The
  output cell is written only at the last point, with the mean of that point's cell. This holds for any float
  instance (induction on the point; no grid point is enumerated).
-/
import proofs.«167686_j79465484910812_1_alg».proof.Proof.Pieces

noncomputable section

open Idealize.ShloMosaic Idealize.ShloMosaic.TcCoe Idealize.SL.Sem

namespace Cert.Bce.Kernel

open Cert.KernelIdeal Cert.KernelIdeal.Gen

variable {F : FTy → Type} [FloatOps F]
variable (m : (ℓ : Loc nD τ sig) → Buf (Elt F) ℓ)

/-- The block of logits point `t` handles, as the body finds it in its staging buffer. -/
abbrev xblk (c : Dev nD) (t : Fin cfg0.N) : Vec F S8192x128 .f32 := iblk m c 0 t

/-- The block of targets point `t` handles. -/
abbrev tblk (c : Dev nD) (t : Fin cfg0.N) : Vec F S8192x128 .i32 := iblk m c 1 t

/-- The scratch cell after point `n`: a fold of `step` over the blocks, from the reset. -/
def cell (c : Dev nD) : (n : ℕ) → n < cfg0.N → Vec F S1x1 .f32
  | 0, h => step (xblk m c ⟨0, h⟩) (tblk m c ⟨0, h⟩) zero
  | n + 1, h => step (xblk m c ⟨n + 1, h⟩) (tblk m c ⟨n + 1, h⟩) (cell c n (Nat.lt_of_succ_lt h))

/-- At the first point the scratch cell ends one step from zero. -/
theorem scratch_first (c : Dev nD) (t : Fin cfg0.N) (h0 : t.val % 64 = 0) (h1 : ¬t.val % 64 = 63) :
    (outsAt0 m c t.val t.isLt).2 = step (xblk m c t) (tblk m c t) zero := by
  rw [outsAt0_A m c t h0 h1]
  dsimp only
  exact scratch_A c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (xblk m c t) (tblk m c t)

/-- At a middle point the scratch cell ends one step from what the point before left. -/
theorem scratch_middle (c : Dev nD) (t : Fin cfg0.N) (h0 : ¬t.val % 64 = 0) (h1 : ¬t.val % 64 = 63) :
    (outsAt0 m c t.val t.isLt).2
      = step (xblk m c t) (tblk m c t) (outsAt0 m c (t.val - 1) (Nat.lt_of_le_of_lt (Nat.sub_le _ _) t.isLt)).2 := by
  rw [outsAt0_B m c t h0 h1]
  dsimp only
  exact scratch_B c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (xblk m c t) (tblk m c t)
    (outsAt0 m c (t.val - 1) (Nat.lt_of_le_of_lt (Nat.sub_le _ _) t.isLt)).2

/-- At the last point likewise, -/
theorem scratch_last (c : Dev nD) (t : Fin cfg0.N) (h0 : ¬t.val % 64 = 0) (h1 : t.val % 64 = 63) :
    (outsAt0 m c t.val t.isLt).2
      = step (xblk m c t) (tblk m c t) (outsAt0 m c (t.val - 1) (Nat.lt_of_le_of_lt (Nat.sub_le _ _) t.isLt)).2 := by
  rw [outsAt0_C m c t h0 h1]
  dsimp only
  exact scratch_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (xblk m c t) (tblk m c t)
    (outsAt0 m c (t.val - 1) (Nat.lt_of_le_of_lt (Nat.sub_le _ _) t.isLt)).2

/-- and the output's staging cell ends at that step's mean. -/
theorem output_last (c : Dev nD) (t : Fin cfg0.N) (h0 : ¬t.val % 64 = 0) (h1 : t.val % 64 = 63) :
    (outsAt0 m c t.val t.isLt).1
      = mean (step (xblk m c t) (tblk m c t) (outsAt0 m c (t.val - 1) (Nat.lt_of_le_of_lt (Nat.sub_le _ _) t.isLt)).2) := by
  rw [outsAt0_C m c t h0 h1]
  dsimp only
  exact output_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (xblk m c t) (tblk m c t)
    (outsAt0 m c (t.val - 1) (Nat.lt_of_le_of_lt (Nat.sub_le _ _) t.isLt)).2

/-- The scratch cell after point `n` is the fold. -/
theorem scratch_eq (c : Dev nD) : ∀ (n : ℕ) (h : n < cfg0.N), (outsAt0 m c n h).2 = cell m c n h
  | 0, h => scratch_first m c ⟨0, h⟩ rfl (show ¬(0 : ℕ) % 64 = 63 by decide)
  | n + 1, h => by
    have hN : cfg0.N = 64 := N_0
    have h0 : ¬(n + 1) % 64 = 0 := by omega
    have key : (outsAt0 m c (n + 1) h).2
        = step (xblk m c ⟨n + 1, h⟩) (tblk m c ⟨n + 1, h⟩) (outsAt0 m c n (Nat.lt_of_succ_lt h)).2 := by
      by_cases h1 : (n + 1) % 64 = 63
      · exact scratch_last m c ⟨n + 1, h⟩ h0 h1
      · exact scratch_middle m c ⟨n + 1, h⟩ h0 h1
    rw [key, scratch_eq c n (Nat.lt_of_succ_lt h)]
    rfl

/-- The output's staging cell after the last point is the mean of the fold. -/
theorem output_eq (c : Dev nD) (n : ℕ) (h : n + 1 < cfg0.N) (h1 : (n + 1) % 64 = 63) :
    (outsAt0 m c (n + 1) h).1 = mean (cell m c (n + 1) h) := by
  have hN : cfg0.N = 64 := N_0
  have h0 : ¬(n + 1) % 64 = 0 := by omega
  have key : (outsAt0 m c (n + 1) h).1
      = mean (step (xblk m c ⟨n + 1, h⟩) (tblk m c ⟨n + 1, h⟩) (outsAt0 m c n (Nat.lt_of_succ_lt h)).2) :=
    output_last m c ⟨n + 1, h⟩ h0 h1
  rw [key, scratch_eq m c n (Nat.lt_of_succ_lt h)]
  rfl

end Cert.Bce.Kernel

end
-- ==== Proof.BceLoss.lean ====
/-
  The per-element loss both programs compute, on the extended reals.

  For a logit `x` and an integer target `t` the loss is
    t = 1 :  softplus (-x) · w,  w = 1 if 0 ≤ x else 8
    t = 0 :  softplus   x  · w,  w = 1 if x < 0 else 8
    else  :  0
  with  softplus z = max z 0 + log (1 + exp (-|z|)).  Both programs spell softplus as
  jnp.logaddexp(z, 0): the value above, chosen by a test "z - 0 is unequal to itself" whose other branch is z + 0.
  The extended reals have no NaN, so that test never holds and the spelling is softplus itself.
-/
import Idealize.ShloMosaic.PureOps.Ideal
import Idealize.ShloMosaic.PureOps.Ideal.Laws
import Idealize.ShloMosaic.Lib.ValueIdx

noncomputable section

namespace Cert.Bce

open Idealize.ShloMosaic

/-- No extended real is unequal to itself: the ordered "not equal" test of a value against itself is false. -/
theorem cmp_one_self (a : EReal) : Ideal.cmp .one a a = 0#1 := by simp [Ideal.cmp]

/-- The same for the unordered spelling of the test. -/
theorem cmp_une_self (a : EReal) : Ideal.cmp .une a a = 0#1 := by simp [Ideal.cmp]

/-- `softplus z = max z 0 + log (1 + exp (-|z|))`, with `|z| = max z (-z)`. -/
def softplus (z : EReal) : EReal := max z 0 + Ideal.log1p (Ideal.exp (-(max z (-z))))

/-- The guarded spelling with `0 - |z - 0|` in the exponent (the kernel's) is softplus. -/
theorem guarded_sub (z : EReal) :
    Scalar.select (Ideal.cmp .one (z - 0) (z - 0)) (z + 0)
        (max z 0 + Ideal.log1p (Ideal.exp (0 - max (z - 0) (-(z - 0))))) = softplus z := by
  rw [cmp_one_self, ValueIdx.select_zero, sub_zero, zero_sub]
  rfl

/-- The guarded spelling with `-|z - 0|` in the exponent and the unordered test (the reference's) is softplus. -/
theorem guarded_neg (z : EReal) :
    Scalar.select (Ideal.cmp .une (z - 0) (z - 0)) (z + 0)
        (max z 0 + Ideal.log1p (Ideal.exp (-(max (z - 0) (-(z - 0)))))) = softplus z := by
  rw [cmp_une_self, ValueIdx.select_zero, sub_zero]
  rfl

/-- The loss of one element: the target selects the branch, the sign of the logit the weight (the words
    `0x3F800000` and `0x41000000` are the floats 1 and 8; they are the same words in both programs and are never
    evaluated). -/
def loss (x : EReal) (t : BitVec 32) : EReal :=
  Scalar.select (IntOp.cmpi .eq t 1#32)
    (softplus (-x) * Scalar.select (Ideal.cmp .oge x 0) (Ideal.ofBits .f32 0x3F800000#32) (Ideal.ofBits .f32 0x41000000#32))
    (Scalar.select (IntOp.cmpi .eq t 0#32)
      (softplus x * Scalar.select (Ideal.cmp .olt x 0) (Ideal.ofBits .f32 0x3F800000#32) (Ideal.ofBits .f32 0x41000000#32))
      0)

end Cert.Bce

end
-- ==== Proof.BlockTotal.lean ====
/-
  One step of the running total, read on the extended reals.

  The body selects each entry's loss (BceLoss), sums every row's 128 lanes, casts the 8192 row sums to a column, sums
  the column, and adds the result to the scratch cell. Read at the cell's one index this is
      old cell + Σ_r Σ_l loss (x r l) (t r l)
  over the block's rows r and lanes l. The reset stores 0 and the last point's output is the cell divided by 2^26.
-/
import proofs.«167686_j79465484910812_1_alg».proof.Proof.Pieces
import proofs.«167686_j79465484910812_1_alg».proof.Proof.BceLoss
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.Bce.Kernel

open Cert.KernelIdeal Cert.KernelIdeal.Gen

/-! ## Pointwise operations read at an index -/

theorem exp_apply {s : Shape} {φ : FTy} (v : FVec Ideal s φ) (i : s.Idx) : exp v i = Ideal.exp (v i) := rfl
theorem log1p_apply {s : Shape} {φ : FTy} (v : FVec Ideal s φ) (i : s.Idx) : log1p v i = Ideal.log1p (v i) := rfl
theorem absf_apply {s : Shape} {φ : FTy} (v : FVec Ideal s φ) (i : s.Idx) : absf v i = max (v i) (-(v i)) := rfl
theorem cmpi_apply {s : Shape} {w : Nat} (p : CmpIPredicate) (a b : IVec s w) (i : s.Idx) :
    cmpi p a b i = IntOp.cmpi p (a i) (b i) := rfl

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The body's two reductions of a block — each row's lane sum, then the sum of the rows — leave, in the 1×1 result,
    the double sum of the block's entries. -/
theorem rows_of_lanes (v : FVec Ideal S8192x128 .f32) (hφ : FKind.Formats .f32)
    (hacc : (0x00000000#32 : BitVec 32) = FKind.add.neutral .f32 hφ) (u w : Fin 1) :
    shapeCast S1x1 (multiReduction .add [0] S1
        (shapeCast S8192x1 (multiReduction .add [1] S8192 v 0x00000000#32 reduces_S8192x128_S8192 hφ hacc) shapeCasts_S8192_S8192x1)
        0x00000000#32 reduces_S8192x1_S1 hφ hacc) shapeCasts_S1_S1x1 (ix2 u w)
      = ∑ r : Fin 8192, ∑ l : Fin 128, v (ix2 r l) := by
  refine (shapeCast_a_1a_apply _ shapeCasts_S1_S1x1 u w).trans ?_
  refine (Ideal.multiReduction_add_single _ 0x00000000#32 reduces_S8192x1_S1 hφ hacc (ix1 w)).trans ?_
  refine Finset.sum_congr rfl fun r _ => ?_
  have e : reduces_S8192x1_S1.lift (ix1 w) r = ix2 (n0 := 8192) (n1 := 1) r w :=
    funext fun a => match a with | ⟨0, _⟩ => Fin.ext rfl | ⟨1, _⟩ => Fin.ext rfl
  refine (congrArg (shapeCast S8192x1 _ shapeCasts_S8192_S8192x1) e).trans ?_
  refine (shapeCast_a_a1_apply _ shapeCasts_S8192_S8192x1 r w).trans ?_
  refine (Ideal.multiReduction_add_single v 0x00000000#32 reduces_S8192x128_S8192 hφ hacc (ix1 r)).trans ?_
  refine Finset.sum_congr rfl fun l _ => congrArg v ?_
  exact funext fun a => match a with | ⟨0, _⟩ => Fin.ext rfl | ⟨1, _⟩ => Fin.ext rfl

/-! ## One element of the block -/

/-- The body's selected value at an entry of the block is that entry's loss. -/
theorem elem_loss (x : Vec Ideal S8192x128 .f32) (t : Vec Ideal S8192x128 .i32) (r : Fin 8192) (l : Fin 128) :
    select (cmpi .eq (k0_pay5 (F := Ideal) t) (broadcast S8192x128 1#32)) (k0_pay6 (F := Ideal) x)
      (select (cmpi .eq (k0_pay5 (F := Ideal) t) (broadcast S8192x128 0#32))
        (mulf (k0_pay7 (F := Ideal) x)
          (select (cmpf .olt (k0_pay4 (F := Ideal) x) (broadcast S8192x128 (Scalar.ofBits .f32 0x00000000#32)))
            (broadcast S8192x128 (Scalar.ofBits .f32 0x3F800000#32)) (broadcast S8192x128 (Scalar.ofBits .f32 0x41000000#32))))
        (broadcast S8192x128 (Scalar.ofBits .f32 0x00000000#32))) (ix2 r l)
      = Cert.Bce.loss (x (ix2 r l)) (t (ix2 r l)) := by
  unfold k0_pay6 k0_pay7 k0_pay5 k0_pay4
  simp only [shapeCast_self, select_apply, cmpi_apply, cmpf_apply, mulf_apply, addf_apply, subf_apply, maximumf_apply,
    broadcast_apply, exp_apply, log1p_apply, absf_apply]
  simp only [Ideal.ofBits_def, Ideal.ofBits_zero_f32, Ideal.cmpf_def]
  rw [Cert.Bce.guarded_sub (0 - x (ix2 r l)), Cert.Bce.guarded_sub (x (ix2 r l)), zero_sub]
  rfl

/-! ## One step, the reset and the mean, read at the cell's index -/

/-- One step adds to the scratch cell the block's total loss: the sum over its rows of the sum over their lanes. -/
theorem step_apply (x : Vec Ideal S8192x128 .f32) (t : Vec Ideal S8192x128 .i32) (a : Vec Ideal S1x1 .f32) (u w : Fin 1) :
    step (F := Ideal) x t a (ix2 u w)
      = a (ix2 u w) + ∑ r : Fin 8192, ∑ l : Fin 128, Cert.Bce.loss (x (ix2 r l)) (t (ix2 r l)) := by
  unfold step k0_pay1
  dsimp only
  rw [shapeCast_self, addf_apply]
  refine congrArg (a (ix2 u w) + ·) ?_
  refine (rows_of_lanes _ (.inl rfl) rfl u w).trans ?_
  exact Finset.sum_congr rfl fun r _ => Finset.sum_congr rfl fun l _ => elem_loss x t r l

/-- The reset stores the extended real zero. -/
theorem zero_apply (j : S1x1.Idx) : (zero (F := Ideal)) j = 0 := by
  show k0_pay3 (F := Ideal) j = 0
  unfold k0_pay3
  rw [shapeCast_self, broadcast_apply, Ideal.ofBits_def, Ideal.ofBits_zero_f32]

/-- The last point's output is the cell divided by the word `0x4C800000` (the float 2^26, the element count). -/
theorem mean_apply (a : Vec Ideal S1x1 .f32) (j : S1x1.Idx) :
    mean (F := Ideal) a j = Ideal.div (a j) (Ideal.ofBits .f32 0x4C800000#32) := rfl

end Cert.Bce.Kernel

end
-- ==== Proof.SumFlat.lean ====
/-
  Re-indexing a sum over `Fin (A·B·C)` as a triple sum in row-major order: position `(a·B + b)·C + c`.
  This is the order in which a flat array of 64·8192·128 entries is visited block by block (64 blocks of 8192 rows of
  128 lanes): the sum of every entry is the sum over blocks of the sum over rows of the sum over lanes.
-/
import Idealize.ShloMosaic.Lib.ValueIdx

noncomputable section

namespace Cert.Bce

open Idealize.ShloMosaic Idealize.ShloMosaic.ValueIdx

/-- A row-major position of a two-level split is in range. -/
theorem flat_lt {A B a b : ℕ} (ha : a < A) (hb : b < B) : a * B + b < A * B :=
  calc a * B + b < a * B + B := by omega
    _ = (a + 1) * B := by ring
    _ ≤ A * B := Nat.mul_le_mul_right B ha

/-- A sum over `Fin (A·B)` is the double sum over the two row-major coordinates. -/
theorem sum_split2 {M : Type*} [AddCommMonoid M] (A B : ℕ) (f : Fin (A * B) → M) :
    ∑ j, f j = ∑ a : Fin A, ∑ b : Fin B, f ⟨a.val * B + b.val, flat_lt a.isLt b.isLt⟩ := by
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- A sum over `Fin (A·B·C)` is the triple sum over the three row-major coordinates. -/
theorem sum_split3 {M : Type*} [AddCommMonoid M] (A B C : ℕ) (f : Fin (A * B * C) → M) :
    ∑ j, f j = ∑ a : Fin A, ∑ b : Fin B, ∑ c : Fin C,
      f ⟨(a.val * B + b.val) * C + c.val, flat_lt (flat_lt a.isLt b.isLt) c.isLt⟩ := by
  rw [sum_split2 (A * B) C f,
    sum_split2 A B fun ab => ∑ c : Fin C, f ⟨ab.val * C + c.val, flat_lt ab.isLt c.isLt⟩]

/-- The flat position of lane `l` of row `r` of block `t`, for 64 blocks of 8192 rows of 128 lanes. -/
abbrev flat (t : Fin 64) (r : Fin 8192) (l : Fin 128) : Fin 67108864 :=
  ⟨(t.val * 8192 + r.val) * 128 + l.val, by omega⟩

/-- The sum of all 67108864 entries, block by block, row by row, lane by lane. -/
theorem sum_blocks {M : Type*} [AddCommMonoid M] (f : Fin 67108864 → M) :
    ∑ j, f j = ∑ t : Fin 64, ∑ r : Fin 8192, ∑ l : Fin 128, f (flat t r l) :=
  sum_split3 64 8192 128 f

/-- A rank-1 index set is its one coordinate's range, so a sum over it is the sum over that coordinate. -/
theorem sum_idx1 {M : Type*} [AddCommMonoid M] {n : ℕ} (f : (⟨1, ![n]⟩ : Shape).Idx → M) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  exact (Equiv.sum_comp e.symm f).symm

end Cert.Bce

end
-- ==== Proof.MeanLoss.lean ====
/-
  The specification: the mean loss of two flat arrays of 67108864 entries (logits and targets), on the extended reals —
  the sum of every entry's loss, divided by the float word `0x4C800000` (2^26 = 67108864, the number of entries; the word
  is the same in both programs and is never evaluated).
-/
import proofs.«167686_j79465484910812_1_alg».proof.Proof.BceLoss
import proofs.«167686_j79465484910812_1_alg».proof.Proof.SumFlat

noncomputable section

namespace Cert.Bce

open Idealize.ShloMosaic Idealize.ShloMosaic.ValueIdx

/-- The mean loss of logits `x` and targets `t`. -/
def meanLoss (x : (⟨1, ![67108864]⟩ : Shape).Idx → EReal) (t : (⟨1, ![67108864]⟩ : Shape).Idx → BitVec 32) : EReal :=
  Ideal.div (∑ j : Fin 67108864, loss (x (ix1 j)) (t (ix1 j))) (Ideal.ofBits .f32 0x4C800000#32)

end Cert.Bce

end
-- ==== Proof.KernelMean.lean ====
/-
  The kernel computes the mean loss.

  On the extended reals one step adds a block's total loss to the scratch cell (BlockTotal), so the cell after point n is
  the total of blocks 0 … n (the fold of Running, read by induction on the point). The region finds the two flat
  arguments reshaped to 524288 rows of 128 lanes, and point t's windows are rows 8192·t … 8192·t + 8191: entry (r, l) of
  block t is entry (8192·t + r)·128 + l of the flat argument. Hence the 64 block totals add up to the sum of every
  entry's loss (SumFlat: addition on the extended reals is commutative and associative, nothing else is used). The last
  point writes the cell divided by 2^26 into the 1×1 output array, whose one block is the whole array, and @main's last
  line reshapes that array to the scalar result: the mean loss of the arguments.
-/
import proofs.«167686_j79465484910812_1_alg».proof.Proof.Running
import proofs.«167686_j79465484910812_1_alg».proof.Proof.BlockTotal
import proofs.«167686_j79465484910812_1_alg».proof.Proof.MeanLoss
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Bce.Kernel

open Cert.KernelIdeal Cert.KernelIdeal.Gen

variable (m : (ℓ : Loc nD τ sig) → Buf (Elt Ideal) ℓ) (ρ : Dev nD → PrngReg)

/-! ## The fold, read on the extended reals -/

/-- Block `k`'s total loss (0 past the grid's end, so that it is a function of a natural number). -/
def blockLoss (c : Dev nD) (k : ℕ) : EReal :=
  if h : k < cfg0.N then
    ∑ r : Fin 8192, ∑ l : Fin 128, Cert.Bce.loss (xblk m c ⟨k, h⟩ (ix2 r l)) (tblk m c ⟨k, h⟩ (ix2 r l))
  else 0

/-- The scratch cell after point `n` holds the total loss of blocks `0 … n`. -/
theorem cell_apply (c : Dev nD) : ∀ (n : ℕ) (h : n < cfg0.N) (u w : Fin 1),
    cell m c n h (ix2 u w) = ∑ k ∈ Finset.range (n + 1), blockLoss m c k
  | 0, h, u, w => by
    have e : blockLoss m c 0 = _ := dif_pos h
    show step (F := Ideal) (xblk m c ⟨0, h⟩) (tblk m c ⟨0, h⟩) zero (ix2 u w) = _
    rw [step_apply, zero_apply, zero_add, Finset.sum_range_one, e]
  | n + 1, h, u, w => by
    have e : blockLoss m c (n + 1) = _ := dif_pos h
    show step (F := Ideal) (xblk m c ⟨n + 1, h⟩) (tblk m c ⟨n + 1, h⟩) (cell m c n (Nat.lt_of_succ_lt h)) (ix2 u w) = _
    rw [step_apply, cell_apply c n (Nat.lt_of_succ_lt h) u w, Finset.sum_range_succ _ (n + 1), e]

/-! ## The blocks are rows of the flat arguments -/

/-- The region finds the logits as the host reshape of the flat argument to 524288 rows of 128 lanes. -/
theorem logits_entry (c : Dev nD) :
    (V m c main_v0 : S524288x128.Idx → EReal)
      = shapeCast S524288x128 (m ((c : Thread nD τ).loc main_arg0)) shapeCasts_S67108864_S524288x128 := by
  show StableHlo.after hostOps0 (fun b => m (c, b)) (Proc.devRef .tc main_v0) = _
  after_results
  rfl

theorem targets_entry (c : Dev nD) :
    (V m c main_v1 : S524288x128.Idx → BitVec 32)
      = shapeCast S524288x128 (m ((c : Thread nD τ).loc main_arg1)) shapeCasts_S67108864_S524288x128 := by
  show StableHlo.after hostOps0 (fun b => m (c, b)) (Proc.devRef .tc main_v1) = _
  after_results
  rfl

/-- Point `t`'s windows sit at row block `t`, lane block 0. -/
theorem win_index (t : Fin cfg0.N) :
    win0_0.index t 0 = t.val ∧ win0_0.index t 1 = 0 ∧ win0_1.index t 0 = t.val ∧ win0_1.index t 1 = 0 :=
  (by decide +kernel : ∀ t : Fin grid0.N,
    win0_0.index t 0 = t.val ∧ win0_0.index t 1 = 0 ∧ win0_1.index t 0 = t.val ∧ win0_1.index t 1 = 0) t

theorem xblk_apply (c : Dev nD) (t : Fin cfg0.N) (k : Fin 64) (hk : k.val = t.val) (r : Fin 8192) (l : Fin 128) :
    xblk m c t (ix2 r l) = m ((c : Thread nD τ).loc main_arg0) (ix1 (Cert.Bce.flat k r l)) := by
  have hi := win_index t
  show iblk m c 0 t (ix2 r l) = _
  unfold iblk
  rw [View.read_apply]
  show V m c main_v0 _ = _
  rw [logits_entry m c]
  refine shapeCast_apply _ _ _ _ ?_
  show (S67108864.rowMajor (ix1 (Cert.Bce.flat k r l))).val = (S524288x128.rowMajor _).val
  rw [Shape.rowMajor_val_one, Shape.rowMajor_val_two]
  show (k.val * 8192 + r.val) * 128 + l.val
    = (win0_0.index t 0 * 8192 + 1 * r.val) * 128 + (win0_0.index t 1 * 128 + 1 * l.val)
  rw [hi.1, hi.2.1]
  omega

theorem tblk_apply (c : Dev nD) (t : Fin cfg0.N) (k : Fin 64) (hk : k.val = t.val) (r : Fin 8192) (l : Fin 128) :
    tblk m c t (ix2 r l) = m ((c : Thread nD τ).loc main_arg1) (ix1 (Cert.Bce.flat k r l)) := by
  have hi := win_index t
  show iblk m c 1 t (ix2 r l) = _
  unfold iblk
  rw [View.read_apply]
  show V m c main_v1 _ = _
  rw [targets_entry m c]
  refine shapeCast_apply _ _ _ _ ?_
  show (S67108864.rowMajor (ix1 (Cert.Bce.flat k r l))).val = (S524288x128.rowMajor _).val
  rw [Shape.rowMajor_val_one, Shape.rowMajor_val_two]
  show (k.val * 8192 + r.val) * 128 + l.val
    = (win0_1.index t 0 * 8192 + 1 * r.val) * 128 + (win0_1.index t 1 * 128 + 1 * l.val)
  rw [hi.2.2.1, hi.2.2.2]
  omega

/-- The total loss of all 64 blocks is the sum of every entry's loss of the flat arguments. -/
theorem blocks_total (c : Dev nD) :
    ∑ k ∈ Finset.range 64, blockLoss m c k
      = ∑ j : Fin 67108864, Cert.Bce.loss (m ((c : Thread nD τ).loc main_arg0) (ix1 j)) (m ((c : Thread nD τ).loc main_arg1) (ix1 j)) := by
  have hN : cfg0.N = 64 := N_0
  rw [Cert.Bce.sum_blocks, Finset.sum_range]
  refine Finset.sum_congr rfl fun k _ => ?_
  have hk : k.val < cfg0.N := by have := k.isLt; omega
  have e : blockLoss m c k.val = _ := dif_pos hk
  rw [e]
  refine Finset.sum_congr rfl fun r _ => Finset.sum_congr rfl fun l _ => ?_
  rw [xblk_apply m c ⟨k.val, hk⟩ k rfl r l, tblk_apply m c ⟨k.val, hk⟩ k rfl r l]

/-! ## The output array, the result and the run -/

theorem last_lt : 63 < cfg0.N := by rw [show cfg0.N = 64 from N_0]; decide

/-- The last grid point. -/
abbrev tLast : Fin cfg0.N := ⟨63, last_lt⟩

/-- What the output array ends holding: the mean of the scratch cell after the last point. -/
abbrev outCell (c : Dev nD) : Buf (Elt Ideal) ((c : Thread nD τ).loc main_v2) := mean (cell m c 63 last_lt)

/-- The output window is written back at the last point only, and what is written back there is `outCell`: the
    window's one block is the whole 1×1 array. -/
theorem flushed_eq (c : Dev nD) (t : Fin cfg0.N) (hf : (cfg0.win 2).flush t = true) :
    (dats m 0 c).flushed 2 t = ((cfg0.win 2).blk t).view.read (Elt Ideal) (outCell m c) := by
  have hN : cfg0.N = 64 := N_0
  have ht : t.val = 63 := by have := (flush0_2 t).mp hf; have := t.isLt; omega
  obtain rfl : t = tLast := Fin.ext ht
  show (cfg0.win 2).cut (grid0.coords tLast) ((dats m 0 c).after 2 tLast) = _
  rw [after0_2, show (outsAt0 m c tLast.val tLast.isLt).1 = outCell m c from output_eq m c 62 last_lt rfl]
  have hz' : (fun a => win0_2.index tLast a * main_v2.ty.shape.size a) = fun _ => 0 :=
    funext fun a => by fin_cases a <;> decide +kernel
  exact (Memref.read_access_unit_zero (Elt Ideal) main_v2 hz' (fun a => by rw [congrFun hz' a]; simp) (outCell m c)).symm

/-- So the output array ends at `outCell`: the last point's block covers its one entry. -/
theorem output_array (c : Dev nD) : (dats m 0 c).arrAt 2 cfg0.N = outCell m c :=
  (dats m 0 c).arrAt_eq_of_cover 2 (outCell m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 1 from by decide +kernel]
        omega⟩

/-- @main's last line reshapes the 1×1 output array to the scalar result. -/
theorem tail_eq (c : Dev nD) :
    Pipeline.afterTail₀ cfgs (dats m) 0 (V0 m) [hostOps1] c main_v3
      = shapeCast S_ (outCell m c) shapeCasts_S1x1_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v2) = outCell m c :=
    (Pipeline.withArrays_arr spec0 winFacts0.arr_inj c _ _ 2).trans (output_array m c)
  rw [e]
  rfl

/-- The kernel's result is the mean loss of its flat arguments: the output cell is the 64 block totals divided by 2^26,
    and the block totals add up to the sum of every entry's loss. -/
theorem value (c : Dev nD) :
    Pipeline.afterTail₀ cfgs (dats m) 0 (V0 m) [hostOps1] c main_v3
      = fun _ => Cert.Bce.meanLoss (m ((c : Thread nD τ).loc main_arg0)) (m ((c : Thread nD τ).loc main_arg1)) := by
  rw [tail_eq]
  funext j
  refine (shapeCast_apply (outCell m c) shapeCasts_S1x1_S_ j (ix2 (0 : Fin 1) (0 : Fin 1)) ?_).trans ?_
  · show (S1x1.rowMajor (ix2 (0 : Fin 1) (0 : Fin 1))).val = (S_.rowMajor j).val
    rw [Shape.rowMajor_val_two]
    show (0 : ℕ) * 1 + 0 = (Shape.rowMajorPi _ j).val
    rw [Shape.rowMajorPi_zero]
  · show mean (F := Ideal) (cell m c 63 last_lt) (ix2 (0 : Fin 1) (0 : Fin 1)) = _
    rw [mean_apply, cell_apply, blocks_total]
    rfl

/-- The kernel's run, read: the result at the mean loss of the arguments, the arguments unchanged. -/
theorem run : θ_run defs (onTc (τ := τ) (main (F := Ideal))) ⟨m, fun _ => 0, ρ⟩ fun r => ∀ c : Dev nD,
      r.2.mem ((c.tc : Thread nD τ).loc main_v3)
        = (fun _ => Cert.Bce.meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Bce.Kernel

end
-- ==== Proof.RefMean.lean ====
/-
  The reference computes the mean loss.

  Its program is a straight line of whole-array operations: softplus of -x and of x (each jnp.logaddexp against 0, with
  the test that never holds on the extended reals), the two weights, the two selects on the target, one sum of all
  67108864 entries from the initial value 0, and the division by 2^26. Read at an entry, the selected value is that
  entry's loss; so the result is the mean loss of the arguments.
-/
import proofs.«167686_j79465484910812_1_alg».proof.Proof.Gen.ReferenceIdeal.Read
import proofs.«167686_j79465484910812_1_alg».proof.Proof.MeanLoss

noncomputable section

open Idealize.ShloMosaic Idealize.ShloMosaic.ValueIdx

namespace Cert.Bce.Ref

open Cert.ReferenceIdeal Cert.ReferenceIdeal.Read

/-- The reference's selected value at an entry is that entry's loss. -/
theorem elem_loss (x0 : (⟨S67108864, .f32⟩ : BufTy).Contents (Elt Ideal)) (x1 : (⟨S67108864, .i32⟩ : BufTy).Contents (Elt Ideal))
    (i : S67108864.Idx) : val_main_v18 (F := Ideal) x0 x1 i = Cert.Bce.loss (x0 i) (x1 i) := by
  simp only [val_main_v18_apply, val_main_v17_apply, val_main_call4_v1_apply, val_main_call4_v0_apply, val_main_cst_6_apply, val_main_v16_apply, val_main_v15_apply, val_main_c_5_apply, val_main_v14_apply, val_main_v13_apply, val_main_c_apply, val_main_v12_apply, val_main_v11_apply, val_main_v10_apply, val_main_call3_v1_apply, val_main_call3_v0_apply, val_main_cst_4_apply, val_main_cst_3_apply, val_main_v9_apply, val_main_v8_apply, val_main_cst_2_apply, val_main_v7_apply, val_main_call2_v11_apply, val_main_call2_v10_apply, val_main_call2_v9_apply, val_main_call2_v8_apply, val_main_call2_v7_apply, val_main_call2_v6_apply, val_main_call2_v5_apply, val_main_call2_v4_apply, val_main_call2_v3_apply, val_main_call2_v2_apply, val_main_call2_v1_apply, val_main_call2_v0_apply, val_main_call2_cst_apply, val_main_v6_apply, val_main_v5_apply, val_main_v4_apply, val_main_call1_v1_apply, val_main_call1_v0_apply, val_main_cst_1_apply, val_main_cst_0_apply, val_main_v3_apply, val_main_v2_apply, val_main_cst_apply, val_main_v1_apply, val_main_call0_v11_apply, val_main_call0_v10_apply, val_main_call0_v9_apply, val_main_call0_v8_apply, val_main_call0_v7_apply, val_main_call0_v6_apply, val_main_call0_v5_apply, val_main_call0_v4_apply, val_main_call0_v3_apply, val_main_call0_v2_apply, val_main_call0_v1_apply, val_main_call0_v0_apply, val_main_call0_cst_apply, val_main_v0_apply]
  simp only [Ideal.hostNegf_def, Ideal.negf_def, Ideal.hostAbsf_def, Ideal.absf_def, Ideal.hostUnary_exp_def,
    Ideal.hostUnary_log1p_def, Ideal.maximumf_def, Ideal.subf_def, Ideal.addf_def, Ideal.mulf_def, Ideal.cmpf_def,
    Ideal.ofBits_def, Ideal.ofBits_zero_f32]
  rw [Cert.Bce.guarded_neg (-(x0 i)), Cert.Bce.guarded_neg (x0 i)]
  rfl

/-- The reference's result is the mean loss of its arguments: the sum from 0 of every entry's loss, divided by 2^26. -/
theorem result_eq (x0 : (⟨S67108864, .f32⟩ : BufTy).Contents (Elt Ideal)) (x1 : (⟨S67108864, .i32⟩ : BufTy).Contents (Elt Ideal)) :
    val_main_v20 (F := Ideal) x0 x1 = fun _ => Cert.Bce.meanLoss x0 x1 := by
  funext i
  rw [val_main_v20_apply, val_main_v19_apply, val_main_cst_7_apply, val_main_cst_8_apply]
  simp only [Ideal.hostDivf_def, Ideal.ofBits_def, Ideal.ofBits_zero_f32, zero_add]
  unfold Cert.Bce.meanLoss
  rw [Cert.Bce.sum_idx1]
  refine congrArg (fun s : EReal => Ideal.div s (Ideal.ofBits .f32 0x4C800000#32)) ?_
  exact Finset.sum_congr rfl fun j _ => elem_loss x0 x1 (ix1 j)

end Cert.Bce.Ref

end
-- ==== Proof.lean ====
/-
  The mean weighted binary-cross-entropy loss of 67108864 logits against integer targets: the kernel against the
  reference, on the extended reals.

  Each entry's loss is softplus (-x) or softplus x, by the target, times 1 or 8, by the logit's sign (BceLoss); the
  result is the sum of all losses divided by 2^26 (MeanLoss).
    • The reference sums all entries at once and divides (RefMean).
    • The kernel visits the entries in 64 blocks of 8192 rows of 128 lanes: each grid point sums its block's rows lane by
      lane, then the rows, and adds the total to a cell it carries from point to point; the last point divides the cell
      by 2^26 (Pieces, BlockTotal, Running, KernelMean).
  The two agree because a finite sum on the extended reals may be regrouped and reordered freely (SumFlat); both divide
  by the same float word, and both spell softplus as jnp.logaddexp(z, 0), whose not-a-number test never holds on the
  extended reals. No finiteness of the inputs is needed.
  The ideal pass rewrote no operation of the kernel, so the kernel's idealization is its own text and `preserves` is
  trivial. The frames of the two kernel programs are their frame runs; the reference's is its run with the result dropped.
-/
import proofs.«167686_j79465484910812_1_alg».proof.Defs
import proofs.«167686_j79465484910812_1_alg».proof.Proof.Gen.Kernel
import proofs.«167686_j79465484910812_1_alg».proof.Proof.Gen.Kernel.Frame
import proofs.«167686_j79465484910812_1_alg».proof.Proof.Gen.KernelIdeal
import proofs.«167686_j79465484910812_1_alg».proof.Proof.Gen.KernelIdeal.Frame
import proofs.«167686_j79465484910812_1_alg».proof.Proof.Gen.ReferenceIdeal
import proofs.«167686_j79465484910812_1_alg».proof.Proof.Gen.Pre_finite_inputs
import proofs.«167686_j79465484910812_1_alg».proof.Proof.Gen.ReferenceIdeal.Run
import proofs.«167686_j79465484910812_1_alg».proof.Proof.Gen.ReferenceIdeal.Read
import proofs.«167686_j79465484910812_1_alg».proof.Proof.KernelMean
import proofs.«167686_j79465484910812_1_alg».proof.Proof.RefMean
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the mean loss of their arguments, and the arguments agree. -/
theorem algebraic : Cert.algebraic_KernelIdeal_ReferenceIdeal := by
  intro m ρ m' ρ' _ hagree
  refine ⟨fun c => fun _ => Cert.Bce.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Bce.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Bce.Ref.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
